-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4000 : Shape := ⟨3, ![4, 64, 4000]⟩
abbrev S4x4000x6000 : Shape := ⟨3, ![4, 4000, 6000]⟩
abbrev S4x6000 : Shape := ⟨2, ![4, 6000]⟩
abbrev S_ : Shape := ⟨0, ![]⟩

class Facts : Prop where
  bcast_S_S4x64x4000 : S_.BroadcastsInDim S4x64x4000 (![] : Fin 0 → Fin S4x64x4000.rank)
  reducesTo_S4x64x4000_S_d0_1_2 : S4x64x4000.ReducesTo [0, 1, 2] S_
  h_S_ : 0 < S_.numel
  bcast_S_S4x4000x6000 : S_.BroadcastsInDim S4x4000x6000 (![] : Fin 0 → Fin S4x4000x6000.rank)
  reducesTo_S4x4000x6000_S_d0_1_2 : S4x4000x6000.ReducesTo [0, 1, 2] S_
  bcast_S_S4x6000 : S_.BroadcastsInDim S4x6000 (![] : Fin 0 → Fin S4x6000.rank)
  reducesTo_S4x6000_S_d0_1 : S4x6000.ReducesTo [0, 1] S_

variable [Facts]

def fn_part1 {F : FTy → Type} [FloatOps F] (main_v13 : IVec S_ 1) (main_v15 : IVec S4x6000 1) (main_c_5 : IVec S_ 1) : IVec S_ 1 :=
  let main_v16 : IVec S_ 1 := (fun x v => Host.reduce IntOp.andi x v reducesTo_S4x6000_S_d0_1 h_S_) main_v15 main_c_5
  let main_v17 : IVec S_ 1 := andi main_v13 main_v16
  main_v17

def fn {F : FTy → Type} [FloatOps F] (main_arg0 : FVec F S4x64x4000 .f32) (main_arg1 : FVec F S4x4000x6000 .f32) (main_arg2 : FVec F S4x6000 .f32) : IVec S_ 1 :=
  let main_v0 : FVec F S4x64x4000 .f32 := Host.absf main_arg0
  let main_cst : FVec F S_ .f32 := constant S_ .f32 0x7F800000#32
  let main_v1 : FVec F S4x64x4000 .f32 := broadcastInDim S4x64x4000 ![] bcast_S_S4x64x4000 main_cst
  let main_v2 : IVec S4x64x4000 1 := cmpf .olt main_v0 main_v1
  let main_c : IVec S_ 1 := constantI S_ 1 1#1
  let main_v3 : IVec S_ 1 := (fun x v => Host.reduce IntOp.andi x v reducesTo_S4x64x4000_S_d0_1_2 h_S_) main_v2 main_c
  let main_v4 : FVec F S4x4000x6000 .f32 := Host.absf main_arg1
  let main_cst_0 : FVec F S_ .f32 := constant S_ .f32 0x7F800000#32
  let main_v5 : FVec F S4x4000x6000 .f32 := broadcastInDim S4x4000x6000 ![] bcast_S_S4x4000x6000 main_cst_0
  let main_v6 : IVec S4x4000x6000 1 := cmpf .olt main_v4 main_v5
  let main_c_1 : IVec S_ 1 := constantI S_ 1 1#1
  let main_v7 : IVec S_ 1 := (fun x v => Host.reduce IntOp.andi x v reducesTo_S4x4000x6000_S_d0_1_2 h_S_) main_v6 main_c_1
  let main_v8 : IVec S_ 1 := andi main_v3 main_v7
  let main_v9 : FVec F S4x6000 .f32 := Host.absf main_arg2
  let main_cst_2 : FVec F S_ .f32 := constant S_ .f32 0x7F800000#32
  let main_v10 : FVec F S4x6000 .f32 := broadcastInDim S4x6000 ![] bcast_S_S4x6000 main_cst_2
  let main_v11 : IVec S4x6000 1 := cmpf .olt main_v9 main_v10
  let main_c_3 : IVec S_ 1 := constantI S_ 1 1#1
  let main_v12 : IVec S_ 1 := (fun x v => Host.reduce IntOp.andi x v reducesTo_S4x6000_S_d0_1 h_S_) main_v11 main_c_3
  let main_v13 : IVec S_ 1 := andi main_v8 main_v12
  let main_cst_4 : FVec F S_ .f32 := constant S_ .f32 0x00000000#32
  let main_v14 : FVec F S4x6000 .f32 := broadcastInDim S4x6000 ![] bcast_S_S4x6000 main_cst_4
  let main_v15 : IVec S4x6000 1 := cmpf .une main_arg2 main_v14
  let main_c_5 : IVec S_ 1 := constantI S_ 1 1#1
  fn_part1 (F := F) main_v13 main_v15 main_c_5
-- ==== Kernel.lean ====
abbrev S4x64x4000 : Shape := ⟨3, ![4, 64, 4000]⟩
abbrev S4x4000x6000 : Shape := ⟨3, ![4, 4000, 6000]⟩
abbrev S4x6000 : Shape := ⟨2, ![4, 6000]⟩
abbrev S4x1x6000 : Shape := ⟨3, ![4, 1, 6000]⟩
abbrev S4x64x6000 : Shape := ⟨3, ![4, 64, 6000]⟩
abbrev S1x64x4000 : Shape := ⟨3, ![1, 64, 4000]⟩
abbrev S1x4000x768 : Shape := ⟨3, ![1, 4000, 768]⟩
abbrev S1x1x768 : Shape := ⟨3, ![1, 1, 768]⟩
abbrev S1x64x768 : Shape := ⟨3, ![1, 64, 768]⟩
abbrev S64x4000 : Shape := ⟨2, ![64, 4000]⟩
abbrev S4000x768 : Shape := ⟨2, ![4000, 768]⟩
abbrev S64x768 : Shape := ⟨2, ![64, 768]⟩
abbrev S1x768 : Shape := ⟨2, ![1, 768]⟩

abbrev nBuf : Space → Nat
  | .hbm => 5
  | .vmem => 8
  | .smem => 0
  | _ => 0

abbrev bufTy : (tb : Table) → Fin (tcTables nBuf tb) → BufTy
  | .hbm, ⟨0, _⟩ => ⟨S4x64x4000, .f32⟩
  | .hbm, ⟨1, _⟩ => ⟨S4x4000x6000, .f32⟩
  | .hbm, ⟨2, _⟩ => ⟨S4x6000, .f32⟩
  | .hbm, ⟨3, _⟩ => ⟨S4x1x6000, .f32⟩
  | .hbm, ⟨4, _⟩ => ⟨S4x64x6000, .f32⟩
  | .local _ .vmem, ⟨0, _⟩ => ⟨S1x64x4000, .f32⟩
  | .local _ .vmem, ⟨1, _⟩ => ⟨S1x64x4000, .f32⟩
  | .local _ .vmem, ⟨2, _⟩ => ⟨S1x4000x768, .f32⟩
  | .local _ .vmem, ⟨3, _⟩ => ⟨S1x4000x768, .f32⟩
  | .local _ .vmem, ⟨4, _⟩ => ⟨S1x1x768, .f32⟩
  | .local _ .vmem, ⟨5, _⟩ => ⟨S1x1x768, .f32⟩
  | .local _ .vmem, ⟨6, _⟩ => ⟨S1x64x768, .f32⟩
  | .local _ .vmem, ⟨7, _⟩ => ⟨S1x64x768, .f32⟩
  | _, _ => ⟨S4x64x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4x6000_S4x1x6000_0_2 : S4x6000.BroadcastsInDim S4x1x6000 (![0, 2] : Fin 2 → Fin S4x1x6000.rank)
  inb_S1x64x4000_S1x64x4000_0_0_0 : ∀ a, (![0, 0, 0] : Fin 3 → Nat) a + S1x64x4000.size a ≤ S1x64x4000.size a
  h_S1x64x4000 : 0 < S1x64x4000.numel
  shapeCasts_S1x64x4000_S64x4000 : S1x64x4000.ShapeCasts S64x4000
  bitsLt_bf16_f32 : FTy.bits .bf16 < FTy.bits .f32
  inb_S1x4000x768_S1x4000x768_0_0_0 : ∀ a, (![0, 0, 0] : Fin 3 → Nat) a + S1x4000x768.size a ≤ S1x4000x768.size a
  h_S1x4000x768 : 0 < S1x4000x768.numel
  shapeCasts_S1x4000x768_S4000x768 : S1x4000x768.ShapeCasts S4000x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  broadcasts_S1x768_S64x768 : S1x768.Broadcasts S64x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S64x768_S1x64x768 : S64x768.ShapeCasts S1x64x768
  dot_S64x4000_S4000x768_S64x768_1_0_0_1_n_n_wf : DotDims.WF S64x4000 S4000x768 S64x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4000.size a ≤ S4x64x4000.size a
  hwx0_0 : ∀ i : grid0.Coords, EltTy.bits .f32 = 32 ∨ (Rect.block (s := S4x64x4000) S1x64x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x4000x768.size a < S4x4000x6000.size a
  hwx0_1 : ∀ i : grid0.Coords, EltTy.bits .f32 = 32 ∨ (Rect.unit (s := S4x4000x6000) (fun a => cc0_transform_1 i a * S1x4000x768.size a) (fun a => (Pipeline.Clip.of (cc0_transform_1 i a) (S1x4000x768.size a) (S4x4000x6000.size a)).extent (S1x4000x768.size a)) fun a => Pipeline.Clip.inb (Pipeline.Clip.ok_of (hstart0_1 i a))).WholeWords (EltTy.packing .f32)
  hwxs0_1 : ∀ i : grid0.Coords, EltTy.bits .f32 = 32 ∨ (Rect.unit (s := S1x4000x768) (fun _ => 0) (fun a => (Pipeline.Clip.of (cc0_transform_1 i a) (S1x4000x768.size a) (S4x4000x6000.size a)).extent (S1x4000x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1x768.size a < S4x1x6000.size a
  hwx0_2 : ∀ i : grid0.Coords, EltTy.bits .f32 = 32 ∨ (Rect.unit (s := S4x1x6000) (fun a => cc0_transform_2 i a * S1x1x768.size a) (fun a => (Pipeline.Clip.of (cc0_transform_2 i a) (S1x1x768.size a) (S4x1x6000.size a)).extent (S1x1x768.size a)) fun a => Pipeline.Clip.inb (Pipeline.Clip.ok_of (hstart0_2 i a))).WholeWords (EltTy.packing .f32)
  hwxs0_2 : ∀ i : grid0.Coords, EltTy.bits .f32 = 32 ∨ (Rect.unit (s := S1x1x768) (fun _ => 0) (fun a => (Pipeline.Clip.of (cc0_transform_2 i a) (S1x1x768.size a) (S4x1x6000.size a)).extent (S1x1x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x64x768.size a < S4x64x6000.size a
  hwx0_3 : ∀ i : grid0.Coords, EltTy.bits .f32 = 32 ∨ (Rect.unit (s := S4x64x6000) (fun a => cc0_transform_3 i a * S1x64x768.size a) (fun a => (Pipeline.Clip.of (cc0_transform_3 i a) (S1x64x768.size a) (S4x64x6000.size a)).extent (S1x64x768.size a)) fun a => Pipeline.Clip.inb (Pipeline.Clip.ok_of (hstart0_3 i a))).WholeWords (EltTy.packing .f32)
  hwxs0_3 : ∀ i : grid0.Coords, EltTy.bits .f32 = 32 ∨ (Rect.unit (s := S1x64x768) (fun _ => 0) (fun a => (Pipeline.Clip.of (cc0_transform_3 i a) (S1x64x768.size a) (S4x64x6000.size a)).extent (S1x64x768.size a)) fun a => (Nat.zero_add _).trans_le (Pipeline.Clip.extent_le (Pipeline.Clip.ok_of (hstart0_3 i a)))).WholeWords (EltTy.packing .f32)

variable [Facts₀]

def dot_S64x4000_S4000x768_S64x768_1_0_0_1_n_n : DotDims S64x4000 S4000x768 S64x768 where
  lhsContracting := [1]
  rhsContracting := [0]
  lhsNonContracting := [0]
  rhsNonContracting := [1]
  lhsBatch := []
  rhsBatch := []
  wf := dot_S64x4000_S4000x768_S64x768_1_0_0_1_n_n_wf

abbrev win0_0 : Pipeline.Window sig grid0 :=
  Pipeline.Window.ofSpec (Memref.whole main_arg0) S1x64x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x4000x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x1x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x64x768.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x4000 : Shape := ⟨3, ![4, 64, 4000]⟩
abbrev S4x4000x6000 : Shape := ⟨3, ![4, 4000, 6000]⟩
abbrev S4x6000 : Shape := ⟨2, ![4, 6000]⟩
abbrev S4x1x6000 : Shape := ⟨3, ![4, 1, 6000]⟩
abbrev S4x64x6000 : Shape := ⟨3, ![4, 64, 6000]⟩

abbrev nBuf : Space → Nat
  | .hbm => 7
  | .vmem => 0
  | .smem => 0
  | _ => 0

abbrev bufTy : (tb : Table) → Fin (tcTables nBuf tb) → BufTy
  | .hbm, ⟨0, _⟩ => ⟨S4x64x4000, .f32⟩
  | .hbm, ⟨1, _⟩ => ⟨S4x4000x6000, .f32⟩
  | .hbm, ⟨2, _⟩ => ⟨S4x6000, .f32⟩
  | .hbm, ⟨3, _⟩ => ⟨S4x1x6000, .f32⟩
  | .hbm, ⟨4, _⟩ => ⟨S4x4000x6000, .f32⟩
  | .hbm, ⟨5, _⟩ => ⟨S4x4000x6000, .f32⟩
  | .hbm, ⟨6, _⟩ => ⟨S4x64x6000, .f32⟩
  | _, _ => ⟨S4x64x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4x6000_S4x1x6000_0_2 : S4x6000.BroadcastsInDim S4x1x6000 (![0, 2] : Fin 2 → Fin S4x1x6000.rank)
  bcast_S4x1x6000_S4x4000x6000_0_1_2 : S4x1x6000.BroadcastsInDim S4x4000x6000 (![0, 1, 2] : Fin 3 → Fin S4x4000x6000.rank)
  dot_S4x64x4000_S4x4000x6000_S4x64x6000_2_1_1_2_0_0_wf : DotDims.WF S4x64x4000 S4x4000x6000 S4x64x6000 [2] [1] [1] [2] [0] [0]

variable [Facts₀]

def dot_S4x64x4000_S4x4000x6000_S4x64x6000_2_1_1_2_0_0 : DotDims S4x64x4000 S4x4000x6000 S4x64x6000 where
  lhsContracting := [2]
  rhsContracting := [1]
  lhsNonContracting := [1]
  rhsNonContracting := [2]
  lhsBatch := [0]
  rhsBatch := [0]
  wf := dot_S4x64x4000_S4x4000x6000_S4x64x6000_2_1_1_2_0_0_wf

class Facts : Prop extends Facts₀ where

variable [Facts]
-- ==== Proof.Spec.lean ====
/-
  The mathematics of the certificate, free of any program.

  Inputs: features `f[b, p, e]` (4 × 64 × 4000), a group matrix `g[b, e, q]` (4 × 4000 × 6000) and occurrence
  counts `o[b, q]` (4 × 6000). The kernel pools first and normalises afterwards,
      `(∑ e, f[b,p,e] · g[b,e,q]) / o[b,q]`,
  the reference normalises the group matrix first and pools afterwards,
      `∑ e, f[b,p,e] · (g[b,e,q] / o[b,q])`.
  On the extended reals the quotient by a NONZERO REAL `c` is the product with the real `1/c`, and for real
  `f`, `g` every term is real, where the product distributes over the finite sum: the two values agree.
  (At `o[b,q] = 0` they do not: `0/0` is the junk value `⊥` on the left while on the right `0 · ⊥ = 0` sums to `0`.)
-/
import Idealize.ShloMosaic.PureOps.Ideal
import Idealize.ShloMosaic.Lib.ValueIdx

noncomputable section

open scoped BigOperators

namespace Cert.Spec

open Idealize.ShloMosaic Idealize.ShloMosaic.ValueIdx

/-- The features' index set. -/
abbrev SF : Shape := ⟨3, ![4, 64, 4000]⟩
/-- The group matrix's index set. -/
abbrev SG : Shape := ⟨3, ![4, 4000, 6000]⟩
/-- The occurrence counts' index set. -/
abbrev SO : Shape := ⟨2, ![4, 6000]⟩
/-- The result's index set. -/
abbrev SR : Shape := ⟨3, ![4, 64, 6000]⟩

/-- Pool over the edges, then divide by the occurrence count: the kernel's value at `[b, p, q]`. -/
def pooledThenNormalised (f : SF.Idx → EReal) (g : SG.Idx → EReal) (o : SO.Idx → EReal) (b : Fin 4) (p : Fin 64) (q : Fin 6000) : EReal :=
  Ideal.div (∑ e : Fin 4000, f (ix3 b p e) * g (ix3 b e q)) (o (ix2 b q))

/-- Divide the group matrix by the occurrence count, then pool over the edges: the reference's value at `[b, p, q]`. -/
def normalisedThenPooled (f : SF.Idx → EReal) (g : SG.Idx → EReal) (o : SO.Idx → EReal) (b : Fin 4) (p : Fin 64) (q : Fin 6000) : EReal :=
  ∑ e : Fin 4000, f (ix3 b p e) * Ideal.div (g (ix3 b e q)) (o (ix2 b q))

/-- The whole result array of the kernel's formula. -/
def pooledThenNormalisedArr (f : SF.Idx → EReal) (g : SG.Idx → EReal) (o : SO.Idx → EReal) : SR.Idx → EReal :=
  fun i => pooledThenNormalised f g o (i 0) (i 1) (i 2)

/-- The whole result array of the reference's formula. -/
def normalisedThenPooledArr (f : SF.Idx → EReal) (g : SG.Idx → EReal) (o : SO.Idx → EReal) : SR.Idx → EReal :=
  fun i => normalisedThenPooled f g o (i 0) (i 1) (i 2)

/-- A finite sum of reals, read in the extended reals, is the sum of the readings. -/
theorem coe_sum {ι : Type} (s : Finset ι) (x : ι → ℝ) : ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- For real summands and a nonzero real divisor the quotient of the sum is the sum of the quotients' products:
    `(∑ e, x e · y e) / c = ∑ e, x e · (y e / c)`. -/
theorem div_sum_mul {ι : Type} [Fintype ι] (x y : ι → ℝ) {c : ℝ} (hc : c ≠ 0) :
    Ideal.div (∑ e, (x e : EReal) * (y e : EReal)) (c : EReal) = ∑ e, (x e : EReal) * Ideal.div (y e : EReal) (c : EReal) := by
  rw [Ideal.div_coe hc]
  simp only [Ideal.div_coe hc, ← EReal.coe_mul, ← coe_sum]
  rw [Finset.sum_mul]
  exact congrArg _ (Finset.sum_congr rfl fun e _ => mul_assoc _ _ _)

/-- THE LAW joining the two programs: for real inputs and nonzero occurrence counts, pooling then normalising is
    normalising then pooling. -/
theorem pooledThenNormalised_eq (f : SF.Idx → EReal) (g : SG.Idx → EReal) (o : SO.Idx → EReal)
    (hf : ∀ i, ∃ r : ℝ, f i = (r : EReal)) (hg : ∀ i, ∃ r : ℝ, g i = (r : EReal))
    (ho : ∀ i, ∃ r : ℝ, r ≠ 0 ∧ o i = (r : EReal)) (b : Fin 4) (p : Fin 64) (q : Fin 6000) :
    pooledThenNormalised f g o b p q = normalisedThenPooled f g o b p q := by
  choose F hF using hf
  choose G hG using hg
  obtain ⟨c, hc, hoc⟩ := ho (ix2 b q)
  unfold pooledThenNormalised normalisedThenPooled
  simp only [hF, hG, hoc]
  exact div_sum_mul (fun e => F (ix3 b p e)) (fun e => G (ix3 b e q)) hc

/-- The same for the whole arrays. -/
theorem pooledThenNormalisedArr_eq (f : SF.Idx → EReal) (g : SG.Idx → EReal) (o : SO.Idx → EReal)
    (hf : ∀ i, ∃ r : ℝ, f i = (r : EReal)) (hg : ∀ i, ∃ r : ℝ, g i = (r : EReal))
    (ho : ∀ i, ∃ r : ℝ, r ≠ 0 ∧ o i = (r : EReal)) :
    pooledThenNormalisedArr f g o = normalisedThenPooledArr f g o :=
  funext fun i => pooledThenNormalised_eq f g o hf hg ho (i 0) (i 1) (i 2)

end Cert.Spec

end
-- ==== Proof.WordFrame.lean ====
/-
  The frame of the kernel as printed, at the word level: it runs to the end, faults nowhere and leaves its argument
  arrays as launched.

  Nothing is said of what the body computes. The last block of every batch overhangs the arrays by 144 columns, so
  the group matrix's and the occurrence counts' staging buffers hold, past the arrays' end, words nothing names;
  at the word level the matrix product is a function of its whole operands, so the result's staging buffer is not
  named either. The frame needs none of it: the body takes no branch, address, trip count or wait amount from any
  loaded word. So the proof data only RELATE what the body is handed to what it leaves, by the relation that holds
  of everything.
-/
import proofs.«101290_j20615843021401_1_alg».proof.Defs
import proofs.«101290_j20615843021401_1_alg».proof.Proof.Gen.Kernel.Frame
import proofs.«101290_j20615843021401_1_alg».proof.Proof.Gen.Kernel.Points
import proofs.«101290_j20615843021401_1_alg».proof.Proof.Gen.Kernel.Skeleton
import proofs.«101290_j20615843021401_1_alg».proof.Proof.Gen.Pre_finite_inputs
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's variants: none. -/
abbrev 𝒱₀ : Variants := Variants.none

/-- The relational proof data on core `c`: the arrays as the region finds them; of what the body leaves in a
    staging buffer nothing is said; the class invariant; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- Whatever a memref's elements hold, the memref is owned at some contents: those read through its view. -/
theorem owns_some (c : Dev nD) {sh : Shape} {e : EltTy} (a : Memref sig .tc .vmem sh e)
    (f : BufTy.Contents (Elt F) a.view.ty) :
    (a.view.loc (c : Thread nD τ) ↦[a.view.set]{fullShare} f : sProp 𝕄)
      ⊢ iprop(∃ X, owns (c : Thread nD τ) a fullShare X) := by
  unfold owns
  iintro H
  iexists a.view.read (Elt F) f; iexists f
  isplitr; · ipureintro; rfl
  iexact H

/-- The body on any four whole staging memrefs: the whole loads of the features', the group matrix's and the
    occurrence counts' buffers, the dead whole load of the result's, and the one whole store into the result's.
    The three input buffers come back holding what they held; the result's comes back holding some contents. -/
theorem sound_body (c : Dev nD) (E : Set ℕ) (i : grid0.Coords)
    (a2 : Memref sig .tc .vmem S1x64x4000 .f32) (h2 : a2.IsWhole)
    (a3 : Memref sig .tc .vmem S1x4000x768 .f32) (h3 : a3.IsWhole)
    (a4 : Memref sig .tc .vmem S1x1x768 .f32) (h4 : a4.IsWhole)
    (a5 : Memref sig .tc .vmem S1x64x768 .f32) (h5 : a5.IsWhole)
    (X0 : S1x64x4000.Idx → Elt F .f32) (X1 : S1x4000x768.Idx → Elt F .f32)
    (X2 : S1x1x768.Idx → Elt F .f32) (X3 : S1x64x768.Idx → Elt F .f32) (K : PUnit → sProp 𝕄) :
    iprop((owns (c : Thread nD τ) a2 fullShare X0 ∗ owns (c : Thread nD τ) a3 fullShare X1
            ∗ owns (c : Thread nD τ) a4 fullShare X2 ∗ owns (c : Thread nD τ) a5 fullShare X3)
          ∗ (iprop(owns (c : Thread nD τ) a2 fullShare X0 ∗ owns (c : Thread nD τ) a3 fullShare X1
                  ∗ owns (c : Thread nD τ) a4 fullShare X2 ∗ (∃ X, owns (c : Thread nD τ) a5 fullShare X)) -∗ K ⟨⟩))
      ⊢ wp frame (wpE (defs₀ (F := F)) 𝒱₀ c none) E (cc0__kernel i a2 h2 a3 h3 a4 h4 a5 h5) K := by
  rw [cc0__kernel_eq_skeleton]; unfold cc0__kernel_skel owns
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iapply (owns_some (F := F) c a5 _)
    iexact H3

/-- The body at every grid point: four whole loads and one whole store; every staging buffer comes back at some
    contents. -/
theorem body_obligation (c : Dev nD) : (rdats m c).BodyObligation (defs₀ (F := F)) 𝒱₀ () Set.univ := fun t Y _ => by
  rw [bigSep_W0, bigSep_W0]
  iintro ⟨HΦ, Ho, H0, H1, H2, H3⟩
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Y 0) (Y 1) (Y 2) (Y 3) _)
  isplitl [H0 H1 H2 H3]
  · isplitl [H0]; · iexact H0
    isplitl [H1]; · iexact H1
    isplitl [H2]; · iexact H2
    iexact H3
  iintro ⟨H0, H1, H2, ⟨%X, H3⟩⟩
  rw [show (rdats m c).Φ t.succ = (rdats m c).Φ t.castSucc from rfl,
    show (rdats m c).owesAt () t.succ = (rdats m c).owesAt () t.castSucc from rfl]
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  · iexists X; isplitr; · ipureintro; trivial
    iexact H3

set_option backward.isDefEq.respectTransparency.types false in
/-- Every weakly fair execution of @main terminates; the input windows' arrays end as the region found them, and so
    does every buffer no window stages. -/
theorem run_main : θ_run (defs (F := F)) (onTc (τ := τ) (main (F := F))) (s₀ m ρ) (RDat.FramePost cfg0 (rdats m) (V m)) :=
  Pipeline.RDat.θ_run_frame cfgs 0 launch0 defs₀ 𝒱₀ (rdats m) m ρ main
    (hbody := body_obligation m)
    (hshare := fun c => (rdats m c).share_full fun _ => rfl) (howed := fun _ _ => rfl)
    (V := V m) (hmain := hmain m 𝒱₀) (hA := fun _ _ => rfl) (hΦ := fun _ _ => rfl)

/-- The frame claim of the printed kernel. -/
theorem frame : Cert.frame_Kernel := fun m ρ _ =>
  (θ_run defs _ _).mono (fun r h c =>
    ⟨(RDat.FramePost.arr_in h c 0 rfl).trans (V_main_arg0 m c),
     (RDat.FramePost.arr_in h c 1 rfl).trans (V_main_arg1 m c),
     ((h c).2 main_arg2 (Pipeline.mem_restRefs_of main_arg2 (by decide) (by decide))).trans (V_main_arg2 m c)⟩)
    (run_main (F := Bits) m ρ)

end Cert.Kernel.Hand

end
-- ==== Proof.IdealData.lean ====
/-
  What the idealized kernel's staging buffers hold after the body at each grid point, named once.

  The grid is 4 × 8: point `(b, k)` works on batch `b` and on the 768 target columns `768·k ‥ 768·k + 767`, of which
  only those below 6000 exist (the last block of each batch overhangs the arrays by 144 columns). The features'
  window holds its whole block `f[b, ·, ·]`; the group matrix's and the occurrence counts' windows hold their
  blocks on the columns inside the arrays and, past the arrays' end, a filler nothing reads (zero); the result's
  window holds the body's one stored value of those three: the pooled sum divided by the counts.
-/
import proofs.«101290_j20615843021401_1_alg».proof.Proof.Gen.KernelIdeal.Frame
import proofs.«101290_j20615843021401_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The features' block at point `t`: all of `f[b, ·, ·]`. -/
def fblk (c : Dev nD) (t : Fin cfg0.N) : S1x64x4000.Idx → Elt F .f32 := iblk m c 0 t
/-- The group matrix's block at point `t`, filled out with zeros past the array's last column. -/
def gblk (c : Dev nD) (t : Fin cfg0.N) : S1x4000x768.Idx → Elt F .f32 :=
  win0_1.fill (grid0.coords t) (fun _ => Scalar.ofBits .f32 0#32) (iblk m c 1 t)
/-- The occurrence counts' block at point `t`, filled out with zeros past the array's last column. -/
def oblk (c : Dev nD) (t : Fin cfg0.N) : S1x1x768.Idx → Elt F .f32 :=
  win0_2.fill (grid0.coords t) (fun _ => Scalar.ofBits .f32 0#32) (iblk m c 2 t)
/-- The result's block at point `t`: the body's stored value of those three. -/
def rblk (c : Dev nD) (t : Fin cfg0.N) : S1x64x768.Idx → Elt F .f32 :=
  k0_pay1 (F := F) (fblk m c t) (gblk m c t) (oblk m c t)

/-- The proof data of the one pipeline on core `c`: the arrays as the region finds them; after the body the four
    staging buffers at `fblk`, `gblk`, `oblk`, `rblk` (the last three stated on the columns inside the arrays
    only: their windows are cut at the arrays' end); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => fblk m c t
    | ⟨1, _⟩ => gblk m c t
    | ⟨2, _⟩ => oblk m c t
    | ⟨3, _⟩ => rblk m c t
  Φ _ := Pipeline.ΦA spec0 c
  q _ := fullShare
  owed _ := 0

/-- The kernel's variants: none. -/
abbrev 𝒱₀ : Variants := Variants.none

end Cert.KernelIdeal.Hand

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Payload.lean ====
/-
  The body's one stored value, read at an entry: of a features block `X0` [1, 64, 4000], a group block `X1`
  [1, 4000, 768] and a counts block `X2` [1, 1, 768], the entry [0, p, q] of the stored block is the pooled sum
  `∑ e, X0[0,p,e] · X1[0,e,q]` divided by `X2[0,0,q]` — the leading unit axes are cast away and back, the changes
  of float format are the identity on the extended reals, the matrix product into a zero accumulator is the plain
  sum, and the counts' one row is broadcast over the 64 feature rows.

  Hence column `q` of the result reads only column `q` of the group block and of the counts block.
-/
import proofs.«101290_j20615843021401_1_alg».proof.Proof.Gen.KernelIdeal.Skeleton
import proofs.«101290_j20615843021401_1_alg».proof.Proof.LibPlainDot
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The stored value at `[0, p, q]`: the pooled sum over the edges divided by the count of column `q`. -/
theorem pay_apply (X0 : Vec Ideal S1x64x4000 .f32) (X1 : Vec Ideal S1x4000x768 .f32) (X2 : Vec Ideal S1x1x768 .f32)
    (u : Fin 1) (p : Fin 64) (q : Fin 768) :
    k0_pay1 (F := Ideal) X0 X1 X2 (ix3 u p q)
      = Ideal.div (∑ e : Fin 4000, X0 (ix3 (0 : Fin 1) p e) * X1 (ix3 (0 : Fin 1) e q)) (X2 (ix3 (0 : Fin 1) (0 : Fin 1) q)) := by
  unfold k0_pay1
  refine (shapeCast_ab_1ab_apply _ _ u p q).trans ?_
  rw [divf_apply]
  refine congrArg₂ Ideal.div ?_ ?_
  · refine (Cert.Lib.PlainDot.matmul_zero_apply dot_S64x4000_S4000x768_S64x768_1_0_0_1_n_n rfl rfl rfl rfl rfl rfl none _ _ p q).trans ?_
    refine Finset.sum_congr rfl fun e _ => ?_
    rw [truncf_apply, truncf_apply]
    exact congrArg₂ (· * ·) (shapeCast_1ab_ab_apply _ _ p e) (shapeCast_1ab_ab_apply _ _ e q)
  · refine (broadcastTo_1b_ab_apply _ _ p q).trans ?_
    exact shapeCast_1ab_ab_apply _ _ (0 : Fin 1) q

/-- Column-locality: two group blocks and two counts blocks that agree on column `q` give the same stored value in
    column `q`. -/
theorem pay_congr_col (X0 : Vec Ideal S1x64x4000 .f32) (X1 X1' : Vec Ideal S1x4000x768 .f32) (X2 X2' : Vec Ideal S1x1x768 .f32)
    (u : Fin 1) (p : Fin 64) (q : Fin 768)
    (h1 : ∀ e : Fin 4000, X1 (ix3 (0 : Fin 1) e q) = X1' (ix3 (0 : Fin 1) e q))
    (h2 : X2 (ix3 (0 : Fin 1) (0 : Fin 1) q) = X2' (ix3 (0 : Fin 1) (0 : Fin 1) q)) :
    k0_pay1 (F := Ideal) X0 X1 X2 (ix3 u p q) = k0_pay1 (F := Ideal) X0 X1' X2' (ix3 u p q) := by
  rw [pay_apply, pay_apply, h2]
  exact congrArg (fun s => Ideal.div s _) (Finset.sum_congr rfl fun e _ => by rw [h1 e])

end Cert.KernelIdeal.Hand

end
-- ==== Proof.IdealBody.lean ====
/-
  The idealized kernel's run: the body at one grid point, and the launch over the grid.
-/
import proofs.«101290_j20615843021401_1_alg».proof.Proof.IdealData
import proofs.«101290_j20615843021401_1_alg».proof.Proof.Payload
import proofs.«101290_j20615843021401_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.ValueIdx
import Idealize.ShloMosaic.PureOps.Ideal
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## What the body finds in the staging buffers -/

/-- The features' buffer holds the features' block at every point, fetched there or not. -/
theorem before_0 (c : Dev nD) (t : Fin cfg0.N) (d) :
    (dats (F := Ideal) m 0 c).before (0 : Fin 4) t d = fblk m c t :=
  Gen.before0_0_of m (dats (F := Ideal) m 0 c) rfl (fun t => rfl) t d

/-- The group matrix's buffer, fetched at every point, holds the block on the columns inside the array and `d` past
    them. -/
theorem before_1 (c : Dev nD) (t : Fin cfg0.N) (d) :
    (dats (F := Ideal) m 0 c).before (1 : Fin 4) t d = win0_1.fill (grid0.coords t) d (iblk m c 1 t) := by
  unfold Dat.before; rw [if_pos (fetch0_1 t)]; rfl

/-- The occurrence counts' buffer likewise. -/
theorem before_2 (c : Dev nD) (t : Fin cfg0.N) (d) :
    (dats (F := Ideal) m 0 c).before (2 : Fin 4) t d = win0_2.fill (grid0.coords t) d (iblk m c 2 t) := by
  unfold Dat.before; rw [if_pos (fetch0_2 t)]; rfl

/-- What the proof data state of each buffer after the body. -/
theorem after_0 (c : Dev nD) (t : Fin cfg0.N) : (dats (F := Ideal) m 0 c).after (0 : Fin 4) t = fblk m c t := by dsimp only [dats]
theorem after_1 (c : Dev nD) (t : Fin cfg0.N) : (dats (F := Ideal) m 0 c).after (1 : Fin 4) t = gblk m c t := by dsimp only [dats]
theorem after_2 (c : Dev nD) (t : Fin cfg0.N) : (dats (F := Ideal) m 0 c).after (2 : Fin 4) t = oblk m c t := by dsimp only [dats]
theorem after_3 (c : Dev nD) (t : Fin cfg0.N) : (dats (F := Ideal) m 0 c).after (3 : Fin 4) t = rblk m c t := by dsimp only [dats]

/-! ## The stored value does not see what lies past the arrays' end -/

/-- Two fillings of one block agree wherever the transfer moves the index: there both read the block. -/
theorem fill_congr_moved {α : Type} {G : Pipeline.Grid} (w : Window sig G) (i : G.Coords) (d d' : w.block.Idx → α)
    (g : (w.xblock i).Idx → α) (J : w.block.Idx) (h : w.moved i J = true) : w.fill i d g J = w.fill i d' g J := by
  unfold Window.fill; rw [dif_pos h, dif_pos h]

/-- At every point the group matrix's and the counts' transfers are cut on the column axis only, and there exactly as
    the result's is: the three index maps agree on that axis, and the other axes lie inside the arrays. -/
theorem xsize_facts : ∀ i : grid0.Coords, win0_1.xsize i 0 = 1 ∧ win0_1.xsize i 1 = 4000 ∧ win0_1.xsize i 2 = win0_3.xsize i 2
    ∧ win0_2.xsize i 0 = 1 ∧ win0_2.xsize i 1 = 1 ∧ win0_2.xsize i 2 = win0_3.xsize i 2 := by decide +kernel

/-- On the result's columns inside the array the stored value is the same whatever fills the group matrix's and the
    counts' buffers past the arrays' end: entry `(p, q)` of the quotient reads column `q` of the group matrix and
    entry `q` of the counts only, and a column inside the result's array is inside theirs. -/
theorem cut_pay_congr (i : grid0.Coords) (X0 : S1x64x4000.Idx → EReal) (d1 d1' : S1x4000x768.Idx → EReal)
    (g : (win0_1.xblock i).Idx → EReal) (d2 d2' : S1x1x768.Idx → EReal) (o : (win0_2.xblock i).Idx → EReal) :
    win0_3.cut i (k0_pay1 (F := Ideal) X0 (win0_1.fill i d1 g) (win0_2.fill i d2 o))
      = win0_3.cut i (k0_pay1 (F := Ideal) X0 (win0_1.fill i d1' g) (win0_2.fill i d2' o)) := by
  funext j
  show k0_pay1 (F := Ideal) X0 _ _ (win0_3.xinj i j) = k0_pay1 (F := Ideal) X0 _ _ (win0_3.xinj i j)
  obtain ⟨u, p, q, hJ, hq⟩ : ∃ (u : Fin 1) (p : Fin 64) (q : Fin 768), win0_3.xinj i j = ix3 u p q ∧ q.val < win0_3.xsize i 2 :=
    ⟨_, _, _, eq_ix3 (win0_3.xinj i j), (j 2).isLt⟩
  rw [hJ]
  obtain ⟨h10, h11, h12, h20, h21, h22⟩ := xsize_facts i
  refine pay_congr_col X0 _ _ _ _ u p q (fun e => fill_congr_moved win0_1 i d1 d1' g _ ?_) (fill_congr_moved win0_2 i d2 d2' o _ ?_)
  · rw [Window.moved_iff]; intro a
    match a with
    | ⟨0, _⟩ => show (0 : ℕ) < win0_1.xsize i 0; rw [h10]; exact Nat.one_pos
    | ⟨1, _⟩ => show e.val < win0_1.xsize i 1; rw [h11]; exact e.isLt
    | ⟨2, _⟩ => show q.val < win0_1.xsize i 2; rw [h12]; exact hq
  · rw [Window.moved_iff]; intro a
    match a with
    | ⟨0, _⟩ => show (0 : ℕ) < win0_2.xsize i 0; rw [h20]; exact Nat.one_pos
    | ⟨1, _⟩ => show (0 : ℕ) < win0_2.xsize i 1; rw [h21]; exact Nat.one_pos
    | ⟨2, _⟩ => show q.val < win0_2.xsize i 2; rw [h22]; exact hq

/-! ## The kernel body on whole staging memrefs -/

/-- One store through the whole-shape rectangle at zero offsets leaves the view reading the stored value, whatever
    it held: the rectangle covers every index. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (P : S.Idx → Val e) :
    v.read Val (v.writes Val f [(⟨Rect.unit off S.size inb, P⟩ : View.Piece Val S e)]) = P := by
  rw [View.read_writes_eq_canon v f _ (fun y => ⟨_, List.mem_singleton_self _, View.mem_set_unit_zero h inb y⟩),
    View.canon_unit_zero h inb P]

/-- The body on whole memrefs holding `X0`, `X1`, `X2` and anything: three whole loads, a dead whole load of the
    result's memref, one whole store — the result's memref ends holding the stored value of the three, those
    unchanged. -/
theorem sound_kernel (c : Dev nD) (E : Set ℕ) (i : grid0.Coords)
    (arg2 : Memref sig .tc .vmem S1x64x4000 .f32) (harg2 : arg2.IsWhole) (arg3 : Memref sig .tc .vmem S1x4000x768 .f32) (harg3 : arg3.IsWhole)
    (arg4 : Memref sig .tc .vmem S1x1x768 .f32) (harg4 : arg4.IsWhole) (arg5 : Memref sig .tc .vmem S1x64x768 .f32) (harg5 : arg5.IsWhole)
    (X0 : Vec Ideal S1x64x4000 .f32) (X1 : Vec Ideal S1x4000x768 .f32) (X2 : Vec Ideal S1x1x768 .f32) (K : PUnit → sProp 𝕄) :
    iprop(owns (c : Thread nD τ) arg2 fullShare X0 ∗ owns (c : Thread nD τ) arg3 fullShare X1 ∗ owns (c : Thread nD τ) arg4 fullShare X2
        ∗ (∃ d, owns (c : Thread nD τ) arg5 fullShare d)
        ∗ (iprop(owns (c : Thread nD τ) arg2 fullShare X0 ∗ owns (c : Thread nD τ) arg3 fullShare X1 ∗ owns (c : Thread nD τ) arg4 fullShare X2
            ∗ owns (c : Thread nD τ) arg5 fullShare (k0_pay1 (F := Ideal) X0 X1 X2)) -∗ K ⟨⟩))
      ⊢ wp frame (wpE (defs₀ (F := Ideal)) 𝒱₀ c none) E (cc0__kernel i arg2 harg2 arg3 harg3 arg4 harg4 arg5 harg5) K := by
  have hz : (![0, 0, 0] : Fin 3 → Nat) = fun _ => 0 := funext fun a => by fin_cases a <;> rfl
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- each whole load reads the contents; the one store covers the memref, which then reads as the stored value
  rw [View.readAt_eq_ld, View.readAt_eq_ld, View.readAt_eq_ld,
    View.ld_unit_zero (S := S1x64x4000) hz, View.ld_unit_zero (S := S1x4000x768) hz, View.ld_unit_zero (S := S1x1x768) hz]
  exact read_writes_unit_zero (S := S1x64x768) _ _ hz inb_S1x64x768_S1x64x768_0_0_0 _

/-! ## The body obligation -/

/-- The library's body obligation at every grid point. -/
theorem body_obligation (c : Dev nD) : BodyObligationLoose (dats (F := Ideal) m 0 c) (defs₀ (F := Ideal)) 𝒱₀ () Set.univ := fun t => by
  rw [bigSep_W0, bigSep_W0]
  -- no point is idle; the features' window is stated exactly, the other three on the columns inside the arrays
  simp only
  rw [show (dats (F := Ideal) m 0 c).Φ t.succ = (dats (F := Ideal) m 0 c).Φ t.castSucc from rfl,
    show (dats (F := Ideal) m 0 c).owesAt () t.succ = (dats (F := Ideal) m 0 c).owesAt () t.castSucc from rfl,
    after_0, after_1, after_2, after_3]
  iintro ⟨HΦ, Ho, ⟨%d0, H0⟩, ⟨%d1, H1⟩, ⟨%d2, H2⟩, ⟨%d3, H3⟩⟩
  rw [before_0 m c t d0, before_1 m c t d1, before_2 m c t d2]
  iapply (sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (fblk m c t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the group matrix's and the counts' buffers hold their blocks filled out with `d1`, `d2`: on the columns inside
  -- the arrays the blocks; the result's holds the stored value of those, which on the columns inside the array is
  -- the stored value of the blocks filled out with zeros
  have hg : win0_1.cut (grid0.coords t) (gblk m c t) = iblk m c 1 t := win0_1.cut_fill _ _ _
  have ho : win0_2.cut (grid0.coords t) (oblk m c t) = iblk m c 2 t := win0_2.cut_fill _ _ _
  have hr : win0_3.cut (grid0.coords t)
        (k0_pay1 (F := Ideal) (fblk m c t) (win0_1.fill (grid0.coords t) d1 (iblk m c 1 t)) (win0_2.fill (grid0.coords t) d2 (iblk m c 2 t)))
      = win0_3.cut (grid0.coords t) (rblk m c t) :=
    cut_pay_congr (grid0.coords t) (fblk m c t) d1 _ (iblk m c 1 t) d2 _ (iblk m c 2 t)
  isplitl [H0]; · iexact H0
  isplitl [H1]
  · iexists d1; rw [hg]; iexact H1
  isplitl [H2]
  · iexists d2; rw [ho]; iexact H2
  · iexists k0_pay1 (F := Ideal) (fblk m c t) (win0_1.fill (grid0.coords t) d1 (iblk m c 1 t)) (win0_2.fill (grid0.coords t) d2 (iblk m c 2 t))
    rw [win0_3.fill_congr_cut (grid0.coords t) hr]; iexact H3

set_option backward.isDefEq.respectTransparency.types false in
/-- Every weakly fair execution of the idealized kernel's @main terminates with each windowed array at what the
    proof data compute and every other buffer as the region found it. -/
theorem run_main : θ_run (defs (F := Ideal)) (onTc (τ := τ) (main (F := Ideal))) (s₀ m ρ) (Pipeline.FramePost cfgs (dats (F := Ideal) m) 0 (V m)) :=
  Pipeline.θ_run_frame cfgs (dats (F := Ideal) m) 0 launch0 defs₀ 𝒱₀ m ρ main
    (hbody := body_obligation m)
    (hshare := fun c => (dats (F := Ideal) m 0 c).share_full fun _ => rfl) (howed := fun _ _ => rfl)
    (V := V m) (hmain := hmain m 𝒱₀) (hA := fun _ _ => rfl) (hΦ := fun _ _ => rfl)

end Cert.KernelIdeal.Hand

end
-- ==== Proof.IdealValue.lean ====
/-
  The idealized kernel's result array after the run, as one function of the argument arrays.
-/
import proofs.«101290_j20615843021401_1_alg».proof.Proof.IdealData
import proofs.«101290_j20615843021401_1_alg».proof.Proof.Spec
import proofs.«101290_j20615843021401_1_alg».proof.Proof.Payload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The index maps at each of the 32 grid points: every window's batch index is the result's, the group's, the
    counts' and the result's column-block indices agree, every other block index is zero. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = win0_3.index t (2 : Fin 3)
    ∧ win0_2.index t (0 : Fin 3) = win0_3.index t (0 : Fin 3) ∧ win0_2.index t (1 : Fin 3) = 0 ∧ win0_2.index t (2 : Fin 3) = win0_3.index t (2 : Fin 3)
    ∧ win0_3.index t (1 : Fin 3) = 0 ∧ win0_3.index t (0 : Fin 3) < 4 ∧ win0_3.index t (2 : Fin 3) < 8 :=
  (by decide +kernel : ∀ t : Fin grid0.N, _)

/-- The cuts at the arrays' end at each grid point: no window is cut on its first two axes; on the column axis the
    group's, the counts' and the result's blocks are cut alike, to 624 columns in the last column block and not at
    all before it. -/
theorem cut_facts : ∀ t : Fin cfg0.N,
    win0_3.xsize (grid0.coords t) (0 : Fin 3) = 1 ∧ win0_3.xsize (grid0.coords t) (1 : Fin 3) = 64
    ∧ win0_1.xsize (grid0.coords t) (0 : Fin 3) = 1 ∧ win0_1.xsize (grid0.coords t) (1 : Fin 3) = 4000
    ∧ win0_1.xsize (grid0.coords t) (2 : Fin 3) = win0_3.xsize (grid0.coords t) (2 : Fin 3)
    ∧ win0_2.xsize (grid0.coords t) (0 : Fin 3) = 1 ∧ win0_2.xsize (grid0.coords t) (1 : Fin 3) = 1
    ∧ win0_2.xsize (grid0.coords t) (2 : Fin 3) = win0_3.xsize (grid0.coords t) (2 : Fin 3)
    ∧ ((win0_3.index t (2 : Fin 3) < 7 ∧ win0_3.xsize (grid0.coords t) (2 : Fin 3) = 768)
        ∨ (win0_3.index t (2 : Fin 3) = 7 ∧ win0_3.xsize (grid0.coords t) (2 : Fin 3) = 624)) :=
  (by decide +kernel : ∀ t : Fin grid0.N, _)

/-- Every (batch, column block) pair is some grid point's. -/
theorem idx_onto : ∀ (b : Fin 4) (k : Fin 8), ∃ t : Fin cfg0.N, win0_3.index t (0 : Fin 3) = b.val ∧ win0_3.index t (2 : Fin 3) = k.val :=
  (by decide +kernel : ∀ (b : Fin 4) (k : Fin 8), ∃ t : Fin grid0.N, win0_3.index t (0 : Fin 3) = b.val ∧ win0_3.index t (2 : Fin 3) = k.val)

/-- The counts as the region finds them: the host's broadcast of the argument to a middle unit axis. -/
theorem V_main_v0 (c : Dev nD) :
    (V m c main_v0 : S4x1x6000.Idx → EReal)
      = broadcastInDim S4x1x6000 ![0, 2] bcast_S4x6000_S4x1x6000_0_2 (m ((c.tc : Thread nD τ).loc main_arg2)) := by
  dsimp only [Gen.V, Gen.hostOps0]; after_results

/-- A block filled from a cut transfer, read at a multi-index the transfer moves: what the transfer brought there. -/
theorem fill_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- The features' block at a grid point, at `[0, p, e]`: the features of the point's batch at `[p, e]`. -/
theorem fblk_at (c : Dev nD) (t : Fin cfg0.N) (p : Fin 64) (e : Fin 4000) (k : S4x64x4000.Idx)
    (hk0 : (k 0).val = win0_3.index t (0 : Fin 3)) (hk1 : (k 1).val = p.val) (hk2 : (k 2).val = e.val) :
    fblk (F := Ideal) m c t (ix3 (0 : Fin 1) p e)
      = (m ((c.tc : Thread nD τ).loc main_arg0) : S4x64x4000.Idx → EReal) k := by
  obtain ⟨e00, e01, e02, -⟩ := idx_facts t
  unfold fblk iblk
  rw [View.read_apply]
  show V m c main_arg0 _ = _
  rw [V_main_arg0]
  refine congrArg _ (funext fun a => Fin.ext ?_)
  match a with
  | ⟨0, _⟩ => show win0_0.index t (0 : Fin 3) * 1 + 1 * 0 = (k 0).val; omega
  | ⟨1, _⟩ => show win0_0.index t (1 : Fin 3) * 64 + 1 * p.val = (k 1).val; omega
  | ⟨2, _⟩ => show win0_0.index t (2 : Fin 3) * 4000 + 1 * e.val = (k 2).val; omega

/-- The group matrix's block at a grid point, at `[0, e, q]` for a column `q` inside the array: the group matrix of
    the point's batch at `[e, 768·(column block) + q]`. -/
theorem gblk_at (c : Dev nD) (t : Fin cfg0.N) (e : Fin 4000) (q : Fin 768)
    (hq : q.val < win0_3.xsize (grid0.coords t) (2 : Fin 3)) (k : S4x4000x6000.Idx)
    (hk0 : (k 0).val = win0_3.index t (0 : Fin 3)) (hk1 : (k 1).val = e.val)
    (hk2 : (k 2).val = win0_3.index t (2 : Fin 3) * 768 + q.val) :
    gblk (F := Ideal) m c t (ix3 (0 : Fin 1) e q)
      = (m ((c.tc : Thread nD τ).loc main_arg1) : S4x4000x6000.Idx → EReal) k := by
  obtain ⟨-, -, -, e10, e11, e12, -⟩ := idx_facts t
  obtain ⟨-, -, x10, x11, x12, -⟩ := cut_facts t
  have hm : win0_1.moved (grid0.coords t) (ix3 (0 : Fin 1) e q) = true :=
    (win0_1.moved_iff _ _).mpr fun a => by
      match a with
      | ⟨0, _⟩ => show 0 < win0_1.xsize (grid0.coords t) (0 : Fin 3); omega
      | ⟨1, _⟩ => show e.val < win0_1.xsize (grid0.coords t) (1 : Fin 3); omega
      | ⟨2, _⟩ => show q.val < win0_1.xsize (grid0.coords t) (2 : Fin 3); omega
  unfold gblk
  refine (fill_moved win0_1 (grid0.coords t) _ _ (ix3 (0 : Fin 1) e q) hm).trans ?_
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = (k 0).val; omega
  | ⟨1, _⟩ => show win0_1.index t (1 : Fin 3) * 4000 + 1 * e.val = (k 1).val; omega
  | ⟨2, _⟩ => show win0_1.index t (2 : Fin 3) * 768 + 1 * q.val = (k 2).val; omega

/-- The counts' block at a grid point, at `[0, 0, q]` for a column `q` inside the array: the counts of the point's
    batch at column `768·(column block) + q` (the host broadcast the counts to a middle unit axis). -/
theorem oblk_at (c : Dev nD) (t : Fin cfg0.N) (q : Fin 768)
    (hq : q.val < win0_3.xsize (grid0.coords t) (2 : Fin 3)) (k : S4x6000.Idx)
    (hk0 : (k 0).val = win0_3.index t (0 : Fin 3))
    (hk1 : (k 1).val = win0_3.index t (2 : Fin 3) * 768 + q.val) :
    oblk (F := Ideal) m c t (ix3 (0 : Fin 1) (0 : Fin 1) q)
      = (m ((c.tc : Thread nD τ).loc main_arg2) : S4x6000.Idx → EReal) k := by
  obtain ⟨-, -, -, -, -, -, e20, e21, e22, -⟩ := idx_facts t
  obtain ⟨-, -, -, -, -, x20, x21, x22, -⟩ := cut_facts t
  have hm : win0_2.moved (grid0.coords t) (ix3 (0 : Fin 1) (0 : Fin 1) q) = true :=
    (win0_2.moved_iff _ _).mpr fun a => by
      match a with
      | ⟨0, _⟩ => show 0 < win0_2.xsize (grid0.coords t) (0 : Fin 3); omega
      | ⟨1, _⟩ => show 0 < win0_2.xsize (grid0.coords t) (1 : Fin 3); omega
      | ⟨2, _⟩ => show q.val < win0_2.xsize (grid0.coords t) (2 : Fin 3); omega
  unfold oblk
  refine (fill_moved win0_2 (grid0.coords t) _ _ (ix3 (0 : Fin 1) (0 : Fin 1) q) hm).trans ?_
  unfold iblk
  rw [View.read_apply]
  show (V m c main_v0 : S4x1x6000.Idx → EReal) _ = _
  rw [V_main_v0]
  refine broadcastInDim_apply _ bcast_S4x6000_S4x1x6000_0_2 _ _ k fun a => ?_
  match a with
  | ⟨0, _⟩ =>
    show (k 0).val = if (4 : Nat) = 1 then 0 else win0_2.index t (0 : Fin 3) * 1 + 1 * 0
    rw [if_neg (by decide)]; omega
  | ⟨1, _⟩ =>
    show (k 1).val = if (6000 : Nat) = 1 then 0 else win0_2.index t (2 : Fin 3) * 768 + 1 * q.val
    rw [if_neg (by decide)]; omega

/-- The kernel's formula over the whole result array, of the argument arrays as launched. -/
abbrev Garr (c : Dev nD) : S4x64x6000.Idx → EReal :=
  Cert.Spec.pooledThenNormalisedArr (m ((c.tc : Thread nD τ).loc main_arg0)) (m ((c.tc : Thread nD τ).loc main_arg1))
    (m ((c.tc : Thread nD τ).loc main_arg2))

/-- WHAT A GRID POINT WRITES BACK — the columns of its stored block that lie inside the array — is its block of the
    kernel's formula: at `[0, p, q]` the pooled sum over the edges of the point's batch divided by the count of
    column `768·(column block) + q`. -/
theorem flushed_eq (c : Dev nD) (t : Fin cfg0.N) :
    (dats (F := Ideal) m 0 c).flushed 3 t = ((cfg0.win 3).blk t).view.read (Elt Ideal) (Garr m c) := by
  obtain ⟨-, -, -, -, -, -, -, -, -, e31, -, -⟩ := idx_facts t
  obtain ⟨x30, x31, -, -, -, -, -, -, x32⟩ := cut_facts t
  funext y
  have hy0 : (y 0).val < win0_3.xsize (grid0.coords t) (0 : Fin 3) := (y 0).isLt
  have hy1 : (y 1).val < win0_3.xsize (grid0.coords t) (1 : Fin 3) := (y 1).isLt
  have hy2 : (y 2).val < win0_3.xsize (grid0.coords t) (2 : Fin 3) := (y 2).isLt
  have hx : win0_3.xinj (grid0.coords t) y
      = ix3 (⟨(y 0).val, by omega⟩ : Fin 1) (⟨(y 1).val, by omega⟩ : Fin 64) (⟨(y 2).val, by omega⟩ : Fin 768) :=
    funext fun a => match a with | ⟨0, _⟩ => rfl | ⟨1, _⟩ => rfl | ⟨2, _⟩ => rfl
  show rblk m c t (win0_3.xinj (grid0.coords t) y) = _
  refine (congrArg (rblk m c t) hx).trans ?_
  unfold rblk
  refine (pay_apply _ _ _ _ _ _).trans ?_
  rw [View.read_apply]
  show _ = Garr m c (((cfg0.win 3).blk t).view.emb y)
  unfold Garr Cert.Spec.pooledThenNormalisedArr Cert.Spec.pooledThenNormalised
  refine congrArg₂ Ideal.div (Finset.sum_congr rfl fun e _ => congrArg₂ (· * ·) ?_ ?_) ?_
  · refine fblk_at m c t _ e _ ?_ ?_ rfl
    · show win0_3.index t (0 : Fin 3) * 1 + 1 * (y 0).val = win0_3.index t (0 : Fin 3); omega
    · show win0_3.index t (1 : Fin 3) * 64 + 1 * (y 1).val = (y 1).val; omega
  · refine gblk_at m c t e _ hy2 _ ?_ rfl ?_
    · show win0_3.index t (0 : Fin 3) * 1 + 1 * (y 0).val = win0_3.index t (0 : Fin 3); omega
    · show win0_3.index t (2 : Fin 3) * 768 + 1 * (y 2).val = win0_3.index t (2 : Fin 3) * 768 + (y 2).val; omega
  · refine oblk_at m c t _ hy2 _ ?_ ?_
    · show win0_3.index t (0 : Fin 3) * 1 + 1 * (y 0).val = win0_3.index t (0 : Fin 3); omega
    · show win0_3.index t (2 : Fin 3) * 768 + 1 * (y 2).val = win0_3.index t (2 : Fin 3) * 768 + (y 2).val; omega

/-- An index of the result array is in a grid point's written-back block iff, on each axis, it lies between the
    block's start and the start plus the transfer's (cut) size. -/
theorem mem_blk (t : Fin cfg0.N) (i : S4x64x6000.Idx) :
    i ∈ ((cfg0.win 3).blk t).view.set
      ↔ ∀ a : Fin 3, win0_3.index t a * S1x64x768.size a ≤ (i a).val
          ∧ (i a).val < win0_3.index t a * S1x64x768.size a + win0_3.xsize (grid0.coords t) a := by
  show i ∈ ((View.whole main_v1).slice (win0_3.rect t)).set ↔ _
  rw [View.set_slice_whole, Rect.mem_set_unit]
  exact Iff.rfl

/-- THE COVER: the entry `[b, p, q]` of the result array lies in the block written back at the grid point of batch
    `b` and column block `q / 768` (the last column block holds the 624 columns `5376 ‥ 5999`). -/
theorem cover (i : S4x64x6000.Idx) :
    ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 6000 := (i 2).isLt
  obtain ⟨t, ht0, ht2⟩ := idx_onto ⟨(i 0).val, h0⟩ ⟨(i 2).val / 768, by omega⟩
  have ht0' : win0_3.index t (0 : Fin 3) = (i 0).val := ht0
  have ht2' : win0_3.index t (2 : Fin 3) = (i 2).val / 768 := ht2
  obtain ⟨-, -, -, -, -, -, -, -, -, e31, -, -⟩ := idx_facts t
  obtain ⟨x30, x31, -, -, -, -, -, -, x32⟩ := cut_facts t
  refine ⟨t, flush0_3 t, ?_⟩
  rw [mem_blk]
  intro a
  match a with
  | ⟨0, _⟩ =>
    show win0_3.index t (0 : Fin 3) * 1 ≤ (i 0).val
      ∧ (i 0).val < win0_3.index t (0 : Fin 3) * 1 + win0_3.xsize (grid0.coords t) (0 : Fin 3)
    omega
  | ⟨1, _⟩ =>
    show win0_3.index t (1 : Fin 3) * 64 ≤ (i 1).val
      ∧ (i 1).val < win0_3.index t (1 : Fin 3) * 64 + win0_3.xsize (grid0.coords t) (1 : Fin 3)
    omega
  | ⟨2, _⟩ =>
    show win0_3.index t (2 : Fin 3) * 768 ≤ (i 2).val
      ∧ (i 2).val < win0_3.index t (2 : Fin 3) * 768 + win0_3.xsize (grid0.coords t) (2 : Fin 3)
    omega

/-- The result array after the last write-back: at `[b, p, q]` the pooled sum over the edges divided by the
    occurrence count, of the argument arrays as launched. -/
theorem final3 (c : Dev nD) :
    (dats (F := Ideal) m 0 c).arrAt 3 cfg0.N
      = Cert.Spec.pooledThenNormalisedArr (m ((c.tc : Thread nD τ).loc main_arg0)) (m ((c.tc : Thread nD τ).loc main_arg1)) (m ((c.tc : Thread nD τ).loc main_arg2)) :=
  (dats (F := Ideal) m 0 c).arrAt_eq_of_cover 3 (Garr m c) (fun t _ => flushed_eq m c t) cover

end Cert.KernelIdeal.Hand

end
-- ==== Proof.RefValue.lean ====
/-
  The reference's result, read at an index: the group matrix is divided by the occurrence count of its column
  (the counts broadcast along the batch's edges) and then contracted with the features over the edges — at
  `[b, p, q]` the sum over the edges `e` of `f[b,p,e] · (g[b,e,q] / o[b,q])`.
-/
import proofs.«101290_j20615843021401_1_alg».proof.Proof.Gen.ReferenceIdeal.Read
import proofs.«101290_j20615843021401_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage is the normalise-then-pool formula of its three arguments. -/
theorem ref_value (x0 : (⟨S4x64x4000, .f32⟩ : BufTy).Contents (Elt Ideal)) (x1 : (⟨S4x4000x6000, .f32⟩ : BufTy).Contents (Elt Ideal))
    (x2 : (⟨S4x6000, .f32⟩ : BufTy).Contents (Elt Ideal)) :
    val_main_v3 (F := Ideal) x0 x1 x2 = Cert.Spec.normalisedThenPooledArr x0 x1 x2 := by
  funext i
  rw [val_main_v3_apply]
  unfold Cert.Spec.normalisedThenPooledArr Cert.Spec.normalisedThenPooled
  refine Finset.sum_congr rfl fun k _ => ?_
  rw [val_main_v2_apply, val_main_v1_apply, val_main_v0_apply]
  -- the three index maps, by coordinates
  have e1 : lidx_main_v3 i k = ix3 (i 0) (i 1) k :=
    funext fun a => Fin.ext (by match a with | ⟨0, _⟩ => rfl | ⟨1, _⟩ => rfl | ⟨2, _⟩ => rfl)
  have e2 : ridx_main_v3 i k = ix3 (i 0) k (i 2) :=
    funext fun a => Fin.ext (by match a with | ⟨0, _⟩ => rfl | ⟨1, _⟩ => rfl | ⟨2, _⟩ => rfl)
  have e3 : idx_main_v0 (idx_main_v1 (ridx_main_v3 i k)) = ix2 (i 0) (i 2) :=
    funext fun a => Fin.ext (by match a with | ⟨0, _⟩ => rfl | ⟨1, _⟩ => rfl)
  rw [e3, e2, e1]
  rfl

end Cert.ReferenceIdeal.RefValue

end
-- ==== Proof.PreFacts.lean ====
/-
  What the precondition says of the inputs: every entry of the three arrays is a real number, and no occurrence
  count is zero.
-/
import proofs.«101290_j20615843021401_1_alg».proof.Pre_finite_inputs
import proofs.«101290_j20615843021401_1_alg».proof.Proof.Gen.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The word `0x7F800000` denotes `+∞`. -/
theorem ofBits_inf : Ideal.ofBits .f32 0x7F800000#32 = (⊤ : EReal) := by simp [Ideal.ofBits, Ideal.ieee]

/-- The word `0x00000000` denotes zero. -/
theorem ofBits_zero : Ideal.ofBits .f32 0x00000000#32 = (0 : EReal) := by simp [Ideal.ofBits, Ideal.ieee]

/-- A one-bit word made from a Boolean is 1 only when the Boolean is true. -/
theorem ofBool_eq_one {b : Bool} (h : BitVec.ofBool b = 1#1) : b = true := by
  cases b with
  | true => rfl
  | false => exact absurd h (by decide)

/-- An extended real whose absolute value `max e (-e)` is below `+∞` is a real number: at `⊥` and at `⊤` the
    absolute value is `⊤`. -/
theorem real_of_abs_lt (e : EReal)
    (h : Ideal.cmp .olt (max e (-e)) (Ideal.ofBits .f32 0x7F800000#32) = 1#1) : ∃ r : ℝ, e = (r : EReal) := by
  rw [ofBits_inf] at h
  have h' : max e (-e) < ⊤ := of_decide_eq_true (ofBool_eq_one (b := decide (max e (-e) < ⊤)) h)
  induction e using EReal.rec with
  | bot => simp at h'
  | coe r => exact ⟨r, rfl⟩
  | top => simp at h'

/-- An extended real that compares unequal to the zero word is not zero. -/
theorem ne_zero_of_une (e : EReal)
    (h : Ideal.cmp .une e (Ideal.ofBits .f32 0x00000000#32) = 1#1) : e ≠ 0 := by
  rw [ofBits_zero] at h
  exact of_decide_eq_true (ofBool_eq_one (b := decide (e ≠ 0)) h)

/-- The scalar shape has one index. -/
instance : Subsingleton S_.Idx := ⟨fun a b => funext fun d => d.elim0⟩

/-- If the printed precondition evaluates to true on `x`, `y`, `z`, then every entry of `x`, `y` and `z` is a
    real number (its absolute value is below `+∞`) and every entry of `z` differs from zero. -/
theorem of_pre (x : FVec Ideal S4x64x4000 .f32) (y : FVec Ideal S4x4000x6000 .f32) (z : FVec Ideal S4x6000 .f32)
    (h : Cert.Pre_finite_inputs.fn (F := Ideal) x y z = fun _ => 1#1) :
    (∀ i, ∃ r : ℝ, x i = (r : EReal)) ∧ (∀ i, ∃ r : ℝ, y i = (r : EReal)) ∧ (∀ i, ∃ r : ℝ, r ≠ 0 ∧ z i = (r : EReal)) := by
  have h0 := congrFun h ValueIdx.ix0
  dsimp only [fn, fn_part1] at h0
  -- the result is the conjunction of four reductions by `and`
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact real_of_abs_lt (x i) (Host.reduce_andi_all _ _ _ _ _ h1 i)
  · exact real_of_abs_lt (y i) (Host.reduce_andi_all _ _ _ _ _ h2 i)
  · obtain ⟨r, hr⟩ := real_of_abs_lt (z i) (Host.reduce_andi_all _ _ _ _ _ h3 i)
    have hz : z i ≠ 0 := ne_zero_of_une (z i) (Host.reduce_andi_all _ _ _ _ _ h4 i)
    refine ⟨r, fun h0 => hz ?_, hr⟩
    rw [hr, h0]; rfl

end Cert.PreFacts

end
-- ==== Proof.lean ====
/-
  The certificate of a pooling kernel against its reference, over the extended reals.

  Inputs: features `f[b, p, e]` (4 × 64 × 4000), a group matrix `g[b, e, q]` (4 × 4000 × 6000) and occurrence counts
  `o[b, q]` (4 × 6000). The reference normalises the group matrix by the counts and then pools,
  `∑ e, f[b,p,e] · (g[b,e,q] / o[b,q])`; the kernel pools first, one batch and 768 target columns per grid point, and
  divides the pooled sum by the counts, `(∑ e, f[b,p,e] · g[b,e,q]) / o[b,q]`. Under the precondition — every input
  a real number and no count zero — the quotient by `o[b,q]` is the product with a real and distributes over the
  finite sum of reals: the two results are equal, entry by entry (`Cert.Spec.pooledThenNormalisedArr_eq`).

  The three frames: the printed kernel's by a run that says nothing of what the body computes
  (`Cert.Kernel.Hand.frame`); the idealized kernel's by the run that names every staging buffer on the columns
  inside the arrays (the last block of every batch overhangs them by 144 columns; `Cert.KernelIdeal.Hand.run_main`);
  the reference's by its run, the result dropped. The idealization rewrote nothing, so `preserves` has no conjunct.
  The equivalence: the kernel's result array is the pool-then-normalise formula of the arguments
  (`Cert.KernelIdeal.Hand.final3`), the reference's the normalise-then-pool formula
  (`Cert.ReferenceIdeal.RefValue.ref_value`), and the law above joins them.
-/
import proofs.«101290_j20615843021401_1_alg».proof.Defs
import proofs.«101290_j20615843021401_1_alg».proof.Proof.Gen.Kernel
import proofs.«101290_j20615843021401_1_alg».proof.Proof.Gen.KernelIdeal
import proofs.«101290_j20615843021401_1_alg».proof.Proof.Gen.KernelIdeal.Frame
import proofs.«101290_j20615843021401_1_alg».proof.Proof.Gen.ReferenceIdeal
import proofs.«101290_j20615843021401_1_alg».proof.Proof.Gen.ReferenceIdeal.Run
import proofs.«101290_j20615843021401_1_alg».proof.Proof.Gen.ReferenceIdeal.Read
import proofs.«101290_j20615843021401_1_alg».proof.Proof.Gen.Pre_finite_inputs
import proofs.«101290_j20615843021401_1_alg».proof.Proof.Spec
import proofs.«101290_j20615843021401_1_alg».proof.Proof.WordFrame
import proofs.«101290_j20615843021401_1_alg».proof.Proof.IdealBody
import proofs.«101290_j20615843021401_1_alg».proof.Proof.IdealValue
import proofs.«101290_j20615843021401_1_alg».proof.Proof.RefValue
import proofs.«101290_j20615843021401_1_alg».proof.Proof.PreFacts
import Idealize.ShloMosaic.Adequacy
import Idealize.ShloMosaic.Init

noncomputable section

namespace Cert.Proof

open Idealize.ShloMosaic Idealize.ShloMosaic.TcCoe Idealize.SL.Sem

/-- The printed kernel runs to the end and leaves its arguments as launched. -/
theorem frame_p : Cert.frame_Kernel := Cert.Kernel.Hand.frame

/-- The idealized kernel runs to the end and leaves its arguments as launched. -/
theorem frame_pi : Cert.frame_KernelIdeal := fun m ρ _ =>
  Cert.KernelIdeal.Gen.frame_of m ρ (Cert.KernelIdeal.Hand.dats m) (fun _ _ => rfl) (Cert.KernelIdeal.Hand.run_main m ρ)

/-- The reference runs to the end and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the pool-then-normalise array of the
    arguments: the kernel by its value leg, the reference by its own formula and the distributive law, which the
    precondition licenses (real inputs, nonzero counts). -/
theorem algebraic : Cert.algebraic_KernelIdeal_ReferenceIdeal := by
  intro m ρ m' ρ' hpre hagree
  refine ⟨fun c => Cert.Spec.pooledThenNormalisedArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨((h c).1 3).trans (Cert.KernelIdeal.Hand.final3 m c),
       ((h c).1 0).trans (((Cert.KernelIdeal.Hand.dats m 0 c).arrAt_in 0 rfl _).trans (Cert.KernelIdeal.Gen.V_main_arg0 m c)),
       ((h c).1 1).trans (((Cert.KernelIdeal.Hand.dats m 0 c).arrAt_in 1 rfl _).trans (Cert.KernelIdeal.Gen.V_main_arg1 m c)),
       ((h c).2 Cert.KernelIdeal.main_arg2 (Pipeline.mem_restRefs_of Cert.KernelIdeal.main_arg2 (by decide) (by decide))).trans
         (Cert.KernelIdeal.Gen.V_main_arg2 m c)⟩)
      (Cert.KernelIdeal.Hand.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v3_eq, Cert.ReferenceIdeal.RefValue.ref_value,
      (hagree c).1, (hagree c).2.1, (hagree c).2.2]
    obtain ⟨hx, hy, hz⟩ := Cert.PreFacts.of_pre _ _ _ (hpre c)
    exact (Cert.Spec.pooledThenNormalisedArr_eq _ _ _ hx hy hz).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
